-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x8 : Shape := ⟨2, ![64, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_v13 : IVec S_ 1) (main_v16 : IVec S64x8 1) : IVec S_ 1 :=
  let main_c_5 : IVec S_ 1 := constantI S_ 1 1#1
  let main_v17 : IVec S_ 1 := (fun x v => Host.reduce IntOp.andi x v reducesTo_S64x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x64 .f32) (main_arg3 : FVec F S64 .f32) (main_arg4 : FVec F S64x8 .f32) (main_arg5 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x8 .f32 := Host.absf main_arg4
  let main_cst_4 : FVec F S_ .f32 := constant S_ .f32 0x7F800000#32
  let main_v15 : FVec F S64x8 .f32 := broadcastInDim S64x8 ![] bcast_S_S64x8 main_cst_4
  let main_v16 : IVec S64x8 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x8 : Shape := ⟨2, ![64, 8]⟩
abbrev S8 : Shape := ⟨1, ![8]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S5000x128 : Shape := ⟨2, ![5000, 128]⟩
abbrev S5000x64 : Shape := ⟨2, ![5000, 64]⟩
abbrev S3300000x64 : Shape := ⟨2, ![3300000, 64]⟩
abbrev S1x64 : Shape := ⟨2, ![1, 64]⟩
abbrev S100000x8 : Shape := ⟨2, ![100000, 8]⟩
abbrev S5000x8 : Shape := ⟨2, ![5000, 8]⟩
abbrev S3300000x8 : Shape := ⟨2, ![3300000, 8]⟩
abbrev S1x8 : Shape := ⟨2, ![1, 8]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x8, .f32⟩
  | .hbm, ⟨5, _⟩ => ⟨S8, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x64, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x8, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x8, .f32⟩
  | .hbm, ⟨75, _⟩ => ⟨S3300000x1, .f32⟩
  | .hbm, ⟨76, _⟩ => ⟨S3300000x8, .f32⟩
  | .hbm, ⟨77, _⟩ => ⟨S3300000x8, .f32⟩
  | .hbm, ⟨78, _⟩ => ⟨S_, .f32⟩
  | .hbm, ⟨79, _⟩ => ⟨S100000x8, .f32⟩
  | .hbm, ⟨80, _⟩ => ⟨S3300000x1, .i32⟩
  | .hbm, ⟨81, _⟩ => ⟨S100000x8, .f32⟩
  | .hbm, ⟨82, _⟩ => ⟨S1x8, .f32⟩
  | .hbm, ⟨83, _⟩ => ⟨S100000x8, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x8, .f32⟩
  | .local _ .vmem, ⟨13, _⟩ => ⟨S5000x8, .f32⟩
  | .local _ .vmem, ⟨14, _⟩ => ⟨S5000x8, .f32⟩
  | .local _ .vmem, ⟨15, _⟩ => ⟨S5000x8, .f32⟩
  | .local _ .vmem, ⟨16, _⟩ => ⟨S5000x8, .f32⟩
  | .local _ .vmem, ⟨17, _⟩ => ⟨S1x8, .f32⟩
  | .local _ .vmem, ⟨18, _⟩ => ⟨S5000x8, .f32⟩
  | .local _ .vmem, ⟨19, _⟩ => ⟨S5000x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x8 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x8 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x8 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x8_S64x8_0_0 : ∀ a, (![0, 0] : Fin 2 → Nat) a + S64x8.size a ≤ S64x8.size a
  h_S64x8 : 0 < S64x8.numel
  inb_S5000x8_S5000x8_0_0 : ∀ a, (![0, 0] : Fin 2 → Nat) a + S5000x8.size a ≤ S5000x8.size a
  h_S5000x8 : 0 < S5000x8.numel
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  shapeCasts_S8_S1x8 : S8.ShapeCasts S1x8
  shapeCasts_S5000x8_S5000x8 : S5000x8.ShapeCasts S5000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x128_S128x64_S5000x64_1_0_0_1_n_n_wf : DotDims.WF S5000x128 S128x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x8_S5000x8_1_0_0_1_n_n_wf : DotDims.WF S5000x64 S64x8 S5000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x8.size a ≤ S64x8.size a
  hwx2_1 : ∀ i : grid2.Coords, EltTy.bits .f32 = 32 ∨ (Rect.block (s := S64x8) S64x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x8.size a ≤ S100000x8.size a
  hwx2_2 : ∀ i : grid2.Coords, EltTy.bits .f32 = 32 ∨ (Rect.block (s := S100000x8) S5000x8.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x8.size a ≤ S100000x8.size a
  hwx3_0 : ∀ i : grid3.Coords, EltTy.bits .f32 = 32 ∨ (Rect.block (s := S100000x8) S5000x8.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x8.size a ≤ S1x8.size a
  hwx3_1 : ∀ i : grid3.Coords, EltTy.bits .f32 = 32 ∨ (Rect.block (s := S1x8) S1x8.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x8.size a ≤ S100000x8.size a
  hwx3_2 : ∀ i : grid3.Coords, EltTy.bits .f32 = 32 ∨ (Rect.block (s := S100000x8) S5000x8.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x8_S5000x8_1_0_0_1_n_n : DotDims S5000x64 S64x8 S5000x8 where
  lhsContracting := [1]
  rhsContracting := [0]
  lhsNonContracting := [0]
  rhsNonContracting := [1]
  lhsBatch := []
  rhsBatch := []
  wf := dot_S5000x64_S64x8_S5000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x8.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x8.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x8.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x8.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x8 : Shape := ⟨2, ![64, 8]⟩
abbrev S8 : Shape := ⟨1, ![8]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x64 : Shape := ⟨2, ![100000, 64]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S100000x8 : Shape := ⟨2, ![100000, 8]⟩
abbrev S3300000x8 : Shape := ⟨2, ![3300000, 8]⟩
abbrev S1x8 : Shape := ⟨2, ![1, 8]⟩

abbrev nBuf : Space → Nat
  | .hbm => 127
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x8, .f32⟩
  | .hbm, ⟨5, _⟩ => ⟨S8, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S100000x64, .f32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S100000x64, .f32⟩
  | .hbm, ⟨74, _⟩ => ⟨S100000x8, .f32⟩
  | .hbm, ⟨75, _⟩ => ⟨S_, .f32⟩
  | .hbm, ⟨76, _⟩ => ⟨S3300000, .f32⟩
  | .hbm, ⟨77, _⟩ => ⟨S_, .f32⟩
  | .hbm, ⟨78, _⟩ => ⟨S100000, .f32⟩
  | .hbm, ⟨79, _⟩ => ⟨S3300000x1, .i32⟩
  | .hbm, ⟨80, _⟩ => ⟨S100000, .f32⟩
  | .hbm, ⟨81, _⟩ => ⟨S_, .f32⟩
  | .hbm, ⟨82, _⟩ => ⟨S100000, .f32⟩
  | .hbm, ⟨83, _⟩ => ⟨S100000, .i1⟩
  | .hbm, ⟨84, _⟩ => ⟨S100000, .f32⟩
  | .hbm, ⟨85, _⟩ => ⟨S_, .f32⟩
  | .hbm, ⟨86, _⟩ => ⟨S_, .f32⟩
  | .hbm, ⟨87, _⟩ => ⟨S100000, .f32⟩
  | .hbm, ⟨88, _⟩ => ⟨S100000, .f32⟩
  | .hbm, ⟨89, _⟩ => ⟨S_, .i32⟩
  | .hbm, ⟨90, _⟩ => ⟨S3300000, .i32⟩
  | .hbm, ⟨91, _⟩ => ⟨S3300000, .i1⟩
  | .hbm, ⟨92, _⟩ => ⟨S_, .i32⟩
  | .hbm, ⟨93, _⟩ => ⟨S3300000, .i32⟩
  | .hbm, ⟨94, _⟩ => ⟨S3300000, .i32⟩
  | .hbm, ⟨95, _⟩ => ⟨S3300000, .i32⟩
  | .hbm, ⟨96, _⟩ => ⟨S3300000x1, .i32⟩
  | .hbm, ⟨97, _⟩ => ⟨S3300000, .f32⟩
  | .hbm, ⟨98, _⟩ => ⟨S_, .i32⟩
  | .hbm, ⟨99, _⟩ => ⟨S3300000, .i32⟩
  | .hbm, ⟨100, _⟩ => ⟨S3300000, .i1⟩
  | .hbm, ⟨101, _⟩ => ⟨S_, .i32⟩
  | .hbm, ⟨102, _⟩ => ⟨S3300000, .i32⟩
  | .hbm, ⟨103, _⟩ => ⟨S3300000, .i32⟩
  | .hbm, ⟨104, _⟩ => ⟨S3300000, .i32⟩
  | .hbm, ⟨105, _⟩ => ⟨S3300000x1, .i32⟩
  | .hbm, ⟨106, _⟩ => ⟨S3300000, .f32⟩
  | .hbm, ⟨107, _⟩ => ⟨S3300000, .f32⟩
  | .hbm, ⟨108, _⟩ => ⟨S_, .i32⟩
  | .hbm, ⟨109, _⟩ => ⟨S3300000, .i32⟩
  | .hbm, ⟨110, _⟩ => ⟨S3300000, .i1⟩
  | .hbm, ⟨111, _⟩ => ⟨S_, .i32⟩
  | .hbm, ⟨112, _⟩ => ⟨S3300000, .i32⟩
  | .hbm, ⟨113, _⟩ => ⟨S3300000, .i32⟩
  | .hbm, ⟨114, _⟩ => ⟨S3300000, .i32⟩
  | .hbm, ⟨115, _⟩ => ⟨S3300000x1, .i32⟩
  | .hbm, ⟨116, _⟩ => ⟨S3300000x8, .f32⟩
  | .hbm, ⟨117, _⟩ => ⟨S3300000x1, .f32⟩
  | .hbm, ⟨118, _⟩ => ⟨S3300000x8, .f32⟩
  | .hbm, ⟨119, _⟩ => ⟨S3300000x8, .f32⟩
  | .hbm, ⟨120, _⟩ => ⟨S_, .f32⟩
  | .hbm, ⟨121, _⟩ => ⟨S100000x8, .f32⟩
  | .hbm, ⟨122, _⟩ => ⟨S3300000x1, .i32⟩
  | .hbm, ⟨123, _⟩ => ⟨S100000x8, .f32⟩
  | .hbm, ⟨124, _⟩ => ⟨S1x8, .f32⟩
  | .hbm, ⟨125, _⟩ => ⟨S100000x8, .f32⟩
  | .hbm, ⟨126, _⟩ => ⟨S100000x8, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_13 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_14 : Ref sig .tc := ⟨.hbm, 85, rfl⟩
abbrev main_call1_v0 : Ref sig .tc := ⟨.hbm, 86, rfl⟩
abbrev main_call1_v1 : Ref sig .tc := ⟨.hbm, 87, rfl⟩
abbrev main_v61 : Ref sig .tc := ⟨.hbm, 88, rfl⟩
abbrev main_c_15 : Ref sig .tc := ⟨.hbm, 89, rfl⟩
abbrev main_v62 : Ref sig .tc := ⟨.hbm, 90, rfl⟩
abbrev main_v63 : Ref sig .tc := ⟨.hbm, 91, rfl⟩
abbrev main_c_16 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_17 : Ref sig .tc := ⟨.hbm, 98, rfl⟩
abbrev main_v69 : Ref sig .tc := ⟨.hbm, 99, rfl⟩
abbrev main_v70 : Ref sig .tc := ⟨.hbm, 100, rfl⟩
abbrev main_c_18 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_19 : Ref sig .tc := ⟨.hbm, 108, rfl⟩
abbrev main_v77 : Ref sig .tc := ⟨.hbm, 109, rfl⟩
abbrev main_v78 : Ref sig .tc := ⟨.hbm, 110, rfl⟩
abbrev main_c_20 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_21 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  dot_S100000x128_S128x64_S100000x64_1_0_0_1_n_n_wf : DotDims.WF S100000x128 S128x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x8_S100000x8_1_0_0_1_n_n_wf : DotDims.WF S100000x64 S64x8 S100000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x8_S100000x8_1_0_0_1_n_n : DotDims S100000x64 S64x8 S100000x8 where
  lhsContracting := [1]
  rhsContracting := [0]
  lhsNonContracting := [0]
  rhsNonContracting := [1]
  lhsBatch := []
  rhsBatch := []
  wf := dot_S100000x64_S64x8_S100000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf

class Facts : Prop extends Facts₀ where

variable [Facts]
-- ==== Proof.Chain.lean ====
import proofs.«147523_j22565758173932_1_alg».proof.KernelIdeal
import proofs.«147523_j22565758173932_1_alg».proof.Proof.Gen.KernelIdeal

/-! The host-side arithmetic that both programs share, named once.

    An edge list `e` of shape [2, 3200000] gives the source and target node of each edge; one self loop per node is
    appended. The degree of a node counts the edges that end in it, a node of positive degree is weighted by the inverse
    square root of its degree, and an edge by the product of its two endpoints' weights. A layer's aggregation gathers a
    row of features for each edge at its source, scales it by the edge's weight and sums the rows of the edges that end in
    a node. -/

noncomputable section

namespace Cert.KernelIdeal.Chain

open Cert.KernelIdeal Cert.KernelIdeal.Facts₀ Cert.KernelIdeal.Facts Idealize.ShloMosaic

variable {F : FTy → Type} [FloatOps F]

/-- The source node of every edge, the self loops last. -/
def srcOf (e : (⟨S2x3200000, .i32⟩ : BufTy).Contents (Elt F)) : (⟨S3300000, .i32⟩ : BufTy).Contents (Elt F) :=
  concatenate S3300000 0 [⟨S3200000, shapeCast S3200000 (extractStridedSlice S1x3200000 ![0, 0] e slices_S2x3200000_S1x3200000_0_0) shapeCasts_S1x3200000_S3200000⟩, ⟨S100000, iotaInDim S100000 32 0⟩] concatenates_S3200000_S100000_S3300000_d0

/-- The target node of every edge, the self loops last. -/
def dstOf (e : (⟨S2x3200000, .i32⟩ : BufTy).Contents (Elt F)) : (⟨S3300000, .i32⟩ : BufTy).Contents (Elt F) :=
  concatenate S3300000 0 [⟨S3200000, shapeCast S3200000 (extractStridedSlice S1x3200000 ![1, 0] e slices_S2x3200000_S1x3200000_1_0) shapeCasts_S1x3200000_S3200000⟩, ⟨S100000, iotaInDim S100000 32 0⟩] concatenates_S3200000_S100000_S3300000_d0

/-- A node index below zero counts from the end: 100000 is added to it; the result as a column of start indices. -/
def wrap (ix : (⟨S3300000, .i32⟩ : BufTy).Contents (Elt F)) : (⟨S3300000x1, .i32⟩ : BufTy).Contents (Elt F) :=
  broadcastInDim S3300000x1 ![0] bcast_S3300000_S3300000x1_0
    (select (cmpi .slt ix (broadcastInDim S3300000 ![] bcast_S_S3300000 (constantI S_ 32 0#32)))
      (addi ix (broadcastInDim S3300000 ![] bcast_S_S3300000 (constantI S_ 32 100000#32))) ix)

/-- The degree of every node: one summed in for each edge that ends in it. -/
def degOf (dst : (⟨S3300000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant S_ .f32 0x00000000#32))
    (broadcastInDim S3300000x1 ![0] bcast_S3300000_S3300000x1_0 dst)
    (broadcastInDim S3300000 ![] bcast_S_S3300000 (constant S_ .f32 0x3F800000#32))

/-- A node's weight: the inverse square root of its degree where that is positive, zero elsewhere. -/
def disOf (deg : (⟨S100000, .f32⟩ : BufTy).Contents (Elt F)) : (⟨S100000, .f32⟩ : BufTy).Contents (Elt F) :=
  select (cmpf (F := F) .ogt deg (broadcastInDim S100000 ![] bcast_S_S100000 (constant S_ .f32 0x00000000#32)))
    (Host.rsqrt deg)
    (broadcastInDim S100000 ![] bcast_S_S100000 (id (constant S_ .f32 0x00000000#32)))

/-- An edge's weight: the product of its endpoints' weights. -/
def normOf (e : (⟨S2x3200000, .i32⟩ : BufTy).Contents (Elt F)) : (⟨S3300000, .f32⟩ : BufTy).Contents (Elt F) :=
  mulf (Host.gather gather_S100000_S3300000x1_S3300000_n_0_n_n_0_1_1 (disOf (degOf (dstOf e))) (wrap (srcOf e)))
    (Host.gather gather_S100000_S3300000x1_S3300000_n_0_n_n_0_1_1 (disOf (degOf (dstOf e))) (wrap (dstOf e)))

/-- One layer's aggregation at width 64: for every node the sum, over the edges that end in it, of the source node's
    row scaled by the edge's weight. -/
def aggOf64 (h : (⟨S100000x64, .f32⟩ : BufTy).Contents (Elt F)) (src dst : (⟨S3300000, .i32⟩ : BufTy).Contents (Elt F))
    (norm : (⟨S3300000, .f32⟩ : BufTy).Contents (Elt F)) : (⟨S100000x64, .f32⟩ : BufTy).Contents (Elt F) :=
  Host.scatterAdd scatter_S100000x64_S3300000x1_S3300000x64_1_0_0_1
    (broadcastInDim S100000x64 ![] bcast_S_S100000x64 (constant S_ .f32 0x00000000#32))
    (broadcastInDim S3300000x1 ![0] bcast_S3300000_S3300000x1_0 dst)
    (mulf (Host.gather gather_S100000x64_S3300000x1_S3300000x64_1_0_n_n_0_1_164 h (wrap src))
      (broadcastInDim S3300000x64 ![0, 1] bcast_S3300000x1_S3300000x64_0_1 (broadcastInDim S3300000x1 ![0] bcast_S3300000_S3300000x1_0 norm)))

/-- The same aggregation at width 8. -/
def aggOf8 (h : (⟨S100000x8, .f32⟩ : BufTy).Contents (Elt F)) (src dst : (⟨S3300000, .i32⟩ : BufTy).Contents (Elt F))
    (norm : (⟨S3300000, .f32⟩ : BufTy).Contents (Elt F)) : (⟨S100000x8, .f32⟩ : BufTy).Contents (Elt F) :=
  Host.scatterAdd scatter_S100000x8_S3300000x1_S3300000x8_1_0_0_1
    (broadcastInDim S100000x8 ![] bcast_S_S100000x8 (constant S_ .f32 0x00000000#32))
    (broadcastInDim S3300000x1 ![0] bcast_S3300000_S3300000x1_0 dst)
    (mulf (Host.gather gather_S100000x8_S3300000x1_S3300000x8_1_0_n_n_0_1_18 h (wrap src))
      (broadcastInDim S3300000x8 ![0, 1] bcast_S3300000x1_S3300000x8_0_1 (broadcastInDim S3300000x1 ![0] bcast_S3300000_S3300000x1_0 norm)))

end Cert.KernelIdeal.Chain

end
-- ==== Proof.Stretch.lean ====
import proofs.«147523_j22565758173932_1_alg».proof.Proof.Gen.KernelIdeal.Launch
import proofs.«147523_j22565758173932_1_alg».proof.Proof.Chain
import Idealize.ShloMosaic.Lib.StableHlo.Run

set_option maxRecDepth 16384

/-! What the host operations between the kernel calls leave in the buffers the calls and the later operations read, from
    ANY contents `W` of the buffers before them: the edge endpoints, the edge weights and each layer's aggregation are
    the shared functions of `Chain` applied to what `W` holds; a buffer no operation of a stretch writes keeps what it held. -/

noncomputable section

namespace Cert.KernelIdeal.Stretch

open Cert.KernelIdeal Cert.KernelIdeal.Gen Cert.KernelIdeal.Chain
open Idealize.ShloMosaic Idealize.ShloMosaic.TcCoe Idealize.ShloMosaic.StableHlo Idealize.SL.Sem

variable {F : FTy → Type} [FloatOps F]
variable (W : Valuation τ sig (Elt F))

/-- No operation of the named stretch writes the buffer in the goal. -/
macro "keeps" ops:ident : tactic => `(tactic|
  (refine StableHlo.after_of_forall_not_mem _ _ (List.forall_iff_forall_mem.mp ?_)
   simp only [$ops:ident, List.Forall, StableHlo.nullary_writes, StableHlo.unary_writes, StableHlo.binary_writes,
     StableHlo.ternary_writes, StableHlo.reshape_writes, Finset.mem_singleton]
   repeat' apply And.intro
   all_goals exact StableHlo.devRef_ne_of_ne (by decide)))

/-! ## The first stretch: endpoints, degrees -/

set_option maxHeartbeats 4000000 in
theorem open0_src : StableHlo.after hostOps0 W (Proc.devRef .tc main_v3) = srcOf (W (Proc.devRef .tc main_arg1)) := by
  unfold srcOf
  dsimp only [hostOps0]
  after_results
  rfl

set_option maxHeartbeats 4000000 in
theorem open0_dst : StableHlo.after hostOps0 W (Proc.devRef .tc main_v6) = dstOf (W (Proc.devRef .tc main_arg1)) := by
  unfold dstOf
  dsimp only [hostOps0]
  after_results
  rfl

set_option maxHeartbeats 4000000 in
/-- Where the degree is positive. -/
theorem open0_pos : StableHlo.after hostOps0 W (Proc.devRef .tc main_v12)
    = cmpf (F := F) .ogt (degOf (dstOf (W (Proc.devRef .tc main_arg1))))
        (broadcastInDim S100000 ![] Facts₀.bcast_S_S100000 (constant S_ .f32 0x00000000#32)) := by
  unfold degOf dstOf
  dsimp only [hostOps0]
  after_results
  rfl

set_option maxHeartbeats 4000000 in
/-- The inverse square root of the degree. -/
theorem open0_rsqrt : StableHlo.after hostOps0 W (Proc.devRef .tc main_v13)
    = Host.rsqrt (degOf (dstOf (W (Proc.devRef .tc main_arg1)))) := by
  unfold degOf dstOf
  dsimp only [hostOps0]
  after_results
  rfl

set_option maxHeartbeats 4000000 in
theorem open0_zero : StableHlo.after hostOps0 W (Proc.devRef .tc main_cst_2) = constant S_ .f32 0x00000000#32 := by
  dsimp only [hostOps0]
  after_results

/-! ## The second stretch: a node's weight -/

theorem open1 : StableHlo.after hostOps0_1 W (Proc.devRef .tc main_v14)
    = select (W (Proc.devRef .tc main_v12)) (W (Proc.devRef .tc main_v13))
        (broadcastInDim S100000 ![] Facts₀.bcast_S_S100000 (id (W (Proc.devRef .tc main_cst_2)))) := by
  dsimp only [hostOps0_1]
  after_results_simp <;> rfl

theorem open1_v3 : StableHlo.after hostOps0_1 W (Proc.devRef .tc main_v3) = W (Proc.devRef .tc main_v3) := by keeps hostOps0_1
theorem open1_v6 : StableHlo.after hostOps0_1 W (Proc.devRef .tc main_v6) = W (Proc.devRef .tc main_v6) := by keeps hostOps0_1

/-! ## The third stretch: an edge's weight -/

theorem open2 : StableHlo.after hostOps0_2 W (Proc.devRef .tc main_v29)
    = mulf (Host.gather gather_S100000_S3300000x1_S3300000_n_0_n_n_0_1_1 (W (Proc.devRef .tc main_v14)) (wrap (W (Proc.devRef .tc main_v3))))
        (Host.gather gather_S100000_S3300000x1_S3300000_n_0_n_n_0_1_1 (W (Proc.devRef .tc main_v14)) (wrap (W (Proc.devRef .tc main_v6)))) := by
  unfold wrap
  dsimp only [hostOps0_2]
  after_results_simp <;> rfl

theorem open2_v3 : StableHlo.after hostOps0_2 W (Proc.devRef .tc main_v3) = W (Proc.devRef .tc main_v3) := by keeps hostOps0_2
theorem open2_v6 : StableHlo.after hostOps0_2 W (Proc.devRef .tc main_v6) = W (Proc.devRef .tc main_v6) := by keeps hostOps0_2

/-! ## The three stretches before the first call, together -/

/-- The buffers after the three stretches of host operations that come before the first kernel call. -/
abbrev pre : Valuation τ sig (Elt F) := StableHlo.after hostOps0_2 (StableHlo.after hostOps0_1 (StableHlo.after hostOps0 W))

theorem pre_src : pre W (Proc.devRef .tc main_v3) = srcOf (W (Proc.devRef .tc main_arg1)) :=
  (open2_v3 _).trans ((open1_v3 _).trans (open0_src W))

theorem pre_dst : pre W (Proc.devRef .tc main_v6) = dstOf (W (Proc.devRef .tc main_arg1)) :=
  (open2_v6 _).trans ((open1_v6 _).trans (open0_dst W))

theorem pre_norm : pre W (Proc.devRef .tc main_v29) = normOf (W (Proc.devRef .tc main_arg1)) := by
  have h2 := open2 (StableHlo.after hostOps0_1 (StableHlo.after hostOps0 W))
  rw [open1, open1_v3, open1_v6, open0_src, open0_dst, open0_pos, open0_rsqrt, open0_zero] at h2
  unfold normOf disOf
  exact h2

theorem pre_arg0 : pre W (Proc.devRef .tc main_arg0) = W (Proc.devRef .tc main_arg0) :=
  (by keeps hostOps0_2 : StableHlo.after hostOps0_2 _ (Proc.devRef .tc main_arg0) = _).trans
    ((by keeps hostOps0_1 : StableHlo.after hostOps0_1 _ (Proc.devRef .tc main_arg0) = _).trans (by keeps hostOps0))
theorem pre_arg2 : pre W (Proc.devRef .tc main_arg2) = W (Proc.devRef .tc main_arg2) :=
  (by keeps hostOps0_2 : StableHlo.after hostOps0_2 _ (Proc.devRef .tc main_arg2) = _).trans
    ((by keeps hostOps0_1 : StableHlo.after hostOps0_1 _ (Proc.devRef .tc main_arg2) = _).trans (by keeps hostOps0))
theorem pre_arg3 : pre W (Proc.devRef .tc main_arg3) = W (Proc.devRef .tc main_arg3) :=
  (by keeps hostOps0_2 : StableHlo.after hostOps0_2 _ (Proc.devRef .tc main_arg3) = _).trans
    ((by keeps hostOps0_1 : StableHlo.after hostOps0_1 _ (Proc.devRef .tc main_arg3) = _).trans (by keeps hostOps0))
theorem pre_arg4 : pre W (Proc.devRef .tc main_arg4) = W (Proc.devRef .tc main_arg4) :=
  (by keeps hostOps0_2 : StableHlo.after hostOps0_2 _ (Proc.devRef .tc main_arg4) = _).trans
    ((by keeps hostOps0_1 : StableHlo.after hostOps0_1 _ (Proc.devRef .tc main_arg4) = _).trans (by keeps hostOps0))
theorem pre_arg5 : pre W (Proc.devRef .tc main_arg5) = W (Proc.devRef .tc main_arg5) :=
  (by keeps hostOps0_2 : StableHlo.after hostOps0_2 _ (Proc.devRef .tc main_arg5) = _).trans
    ((by keeps hostOps0_1 : StableHlo.after hostOps0_1 _ (Proc.devRef .tc main_arg5) = _).trans (by keeps hostOps0))

/-! ## Between the first and the second call -/

theorem mid_agg : StableHlo.after hostOps1 W (Proc.devRef .tc main_v43)
    = aggOf64 (W (Proc.devRef .tc main_v30)) (W (Proc.devRef .tc main_v3)) (W (Proc.devRef .tc main_v6)) (W (Proc.devRef .tc main_v29)) := by
  unfold aggOf64 wrap
  dsimp only [hostOps1]
  after_results_simp <;> rfl

theorem mid_bias : StableHlo.after hostOps1 W (Proc.devRef .tc main_v44)
    = shapeCast S1x64 (W (Proc.devRef .tc main_arg3)) Facts₀.shapeCasts_S64_S1x64 := by
  dsimp only [hostOps1]
  after_results_simp <;> rfl

theorem mid_v3 : StableHlo.after hostOps1 W (Proc.devRef .tc main_v3) = W (Proc.devRef .tc main_v3) := by keeps hostOps1
theorem mid_v6 : StableHlo.after hostOps1 W (Proc.devRef .tc main_v6) = W (Proc.devRef .tc main_v6) := by keeps hostOps1
theorem mid_v29 : StableHlo.after hostOps1 W (Proc.devRef .tc main_v29) = W (Proc.devRef .tc main_v29) := by keeps hostOps1
theorem mid_arg4 : StableHlo.after hostOps1 W (Proc.devRef .tc main_arg4) = W (Proc.devRef .tc main_arg4) := by keeps hostOps1
theorem mid_arg5 : StableHlo.after hostOps1 W (Proc.devRef .tc main_arg5) = W (Proc.devRef .tc main_arg5) := by keeps hostOps1

/-! ## Between the third and the fourth call -/

theorem late_agg : StableHlo.after hostOps3 W (Proc.devRef .tc main_v59)
    = aggOf8 (W (Proc.devRef .tc main_v46)) (W (Proc.devRef .tc main_v3)) (W (Proc.devRef .tc main_v6)) (W (Proc.devRef .tc main_v29)) := by
  unfold aggOf8 wrap
  dsimp only [hostOps3]
  after_results_simp <;> rfl

theorem late_bias : StableHlo.after hostOps3 W (Proc.devRef .tc main_v60)
    = shapeCast S1x8 (W (Proc.devRef .tc main_arg5)) Facts₀.shapeCasts_S8_S1x8 := by
  dsimp only [hostOps3]
  after_results_simp <;> rfl

end Cert.KernelIdeal.Stretch

end
-- ==== Proof.Prod1.lean ====
import proofs.«147523_j22565758173932_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Closed

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Row `i 0` of the left operand at column `k`. -/
abbrev lrow1 (i : S100000x64.Idx) (k : Fin 128) : S100000x128.Idx := fun a => match a with
  | ⟨0, _⟩ => ⟨(i 0).val, (i 0).isLt⟩
  | ⟨1, _⟩ => ⟨k.val, k.isLt⟩
/-- Row `k` of the right operand at column `i 1`. -/
abbrev rcol1 (i : S100000x64.Idx) (k : Fin 128) : S128x64.Idx := fun a => match a with
  | ⟨0, _⟩ => ⟨k.val, k.isLt⟩
  | ⟨1, _⟩ => ⟨(i 1).val, (i 1).isLt⟩
/-- The product of a 100000 × 128 matrix with a 128 × 64 one, entry by entry, as a sum over the inner index. -/
def prod1 (x : (⟨S100000x128, .f32⟩ : BufTy).Contents (Elt Ideal)) (w : (⟨S128x64, .f32⟩ : BufTy).Contents (Elt Ideal)) :
    (⟨S100000x64, .f32⟩ : BufTy).Contents (Elt Ideal) :=
  fun i => ∑ k : Fin 128, x (lrow1 i k) * w (rcol1 i k)

namespace Prod1

/-! ## The block product at an entry -/

/-- The left operand's row coordinate is the entry's row. -/
theorem lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's column coordinate is the inner index. -/
theorem lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand's row coordinate is the inner index. -/
theorem rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- The right operand's column coordinate is the entry's column. -/
theorem rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- What the body stores at entry `(p, q)` of its block: row `p` of the loaded left block against column `q` of the
    loaded right block, summed over the 128 inner indices (rounding to the narrower format is the identity on the
    extended reals, and the accumulator starts at zero). -/
theorem pay_apply (x0 : Vec Ideal S5000x128 .f32) (x1 : Vec Ideal S128x64 .f32) (p : Fin 5000) (q : Fin 64) :
    k0_pay1 x0 x1 (ValueIdx.ix2 p q) = ∑ k : Fin 128, x0 (ValueIdx.ix2 p k) * x1 (ValueIdx.ix2 k q) := by
  unfold k0_pay1
  show FloatOps.matmul dot_S5000x128_S128x64_S5000x64_1_0_0_1_n_n none (truncf .bf16 x0 bitsLt_bf16_f32) (truncf .bf16 x1 bitsLt_bf16_f32)
    (constant (F := Ideal) S5000x64 .f32 0x00000000#32) (ValueIdx.ix2 p q) = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ValueIdx.ix2 p q) ((ValueIdx.contrEquiv1 dot_S5000x128_S128x64_S5000x64_1_0_0_1_n_n 128 rfl rfl).symm k) = ValueIdx.ix2 p k := funext fun a => Fin.ext (by
    match a with
    | ⟨0, _⟩ => exact lhs_0 _ _
    | ⟨1, _⟩ => exact (lhs_1 _ _).trans hk)
  have er : dot_S5000x128_S128x64_S5000x64_1_0_0_1_n_n.rhsIdx (ValueIdx.ix2 p q) ((ValueIdx.contrEquiv1 dot_S5000x128_S128x64_S5000x64_1_0_0_1_n_n 128 rfl rfl).symm k) = ValueIdx.ix2 k q := funext fun a => Fin.ext (by
    match a with
    | ⟨0, _⟩ => exact (rhs_0 _ _).trans hk
    | ⟨1, _⟩ => exact rhs_1 _ _)
  rw [el, er]
  rfl

/-! ## From the row blocks to the array -/

theorem zero_offsets : (![0, 0] : Fin 2 → Nat) = fun _ => 0 := funext fun a => by fin_cases a <;> rfl

/-- At each of the twenty grid points `t` the left operand's and the result's row blocks sit at block row `t`, block
    column 0, and the right operand is one block at (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 20 :=
  (by decide +kernel : ∀ t : Fin grid0.N, _)

/-- Every one of the twenty block rows is some grid point's. -/
theorem block_onto : ∀ b : Fin 20, ∃ t : Fin cfg0.N, t.val = b.val :=
  (by decide +kernel : ∀ b : Fin 20, ∃ t : Fin grid0.N, t.val = b.val)

/-- The left operand's block at point `t`, entry `(p, k)`, is the array's entry at row `5000 t + p`, column `k`. -/
theorem left_block (c : Dev nD) (t : Fin cfg0.N) (p : Fin 5000) (k : Fin 128) (i : S100000x128.Idx)
    (h0 : (i 0).val = t.val * 5000 + p.val) (h1 : (i 1).val = k.val) :
    iblk0 V c 0 t (ValueIdx.ix2 p k) = V c main_arg0 i := by
  obtain ⟨e0, e1, -⟩ := block_indices t
  show V c main_arg0 (((cfg0.win 0).blk t).view.emb (ValueIdx.ix2 p k)) = V c main_arg0 i
  congr 1
  funext a; apply Fin.ext
  match a with
  | ⟨0, _⟩ => show win0_0.index t (0 : Fin 2) * 5000 + 1 * p.val = (i 0).val; omega
  | ⟨1, _⟩ => show win0_0.index t (1 : Fin 2) * 128 + 1 * k.val = (i 1).val; omega

/-- The right operand's one block is the whole array. -/
theorem right_block (c : Dev nD) (t : Fin cfg0.N) (k : Fin 128) (q : Fin 64) (i : S128x64.Idx)
    (h0 : (i 0).val = k.val) (h1 : (i 1).val = q.val) :
    iblk0 V c 1 t (ValueIdx.ix2 k q) = V c main_arg2 i := by
  obtain ⟨-, -, e0, e1, -⟩ := block_indices t
  show V c main_arg2 (((cfg0.win 1).blk t).view.emb (ValueIdx.ix2 k q)) = V c main_arg2 i
  congr 1
  funext a; apply Fin.ext
  match a with
  | ⟨0, _⟩ => show win0_1.index t (0 : Fin 2) * 128 + 1 * k.val = (i 0).val; omega
  | ⟨1, _⟩ => show win0_1.index t (1 : Fin 2) * 64 + 1 * q.val = (i 1).val; omega

/-- The result's block at point `t` sits at rows `5000 t …`, all 64 columns. -/
theorem out_block_0 (t : Fin cfg0.N) (p : Fin 5000) (q : Fin 64) :
    ((((cfg0.win 2).blk t).view.emb (ValueIdx.ix2 p q) : S100000x64.Idx) 0).val = t.val * 5000 + p.val := by
  obtain ⟨-, -, -, -, e0, e1, -⟩ := block_indices t
  show win0_2.index t (0 : Fin 2) * 5000 + 1 * p.val = _; omega
theorem out_block_1 (t : Fin cfg0.N) (p : Fin 5000) (q : Fin 64) :
    ((((cfg0.win 2).blk t).view.emb (ValueIdx.ix2 p q) : S100000x64.Idx) 1).val = q.val := by
  obtain ⟨-, -, -, -, e0, e1, -⟩ := block_indices t
  show win0_2.index t (1 : Fin 2) * 64 + 1 * q.val = _; omega

/-- What point `t` writes back is block `t` of the whole product. -/
theorem flushed_eq (c : Dev nD) (t : Fin cfg0.N) :
    (dat0 (F := Ideal) V c).flushed 2 t = ((cfg0.win 2).blk t).view.read (Elt Ideal) (prod1 (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x64) zero_offsets]
  funext j
  obtain ⟨p, q, rfl⟩ : ∃ (p : Fin 5000) (q : Fin 64), j = ValueIdx.ix2 p q := ⟨j 0, j 1, ValueIdx.eq_ix2 j⟩
  show k0_pay1 (iblk0 V c 0 t) (iblk0 V c 1 t) (ValueIdx.ix2 p q)
    = prod1 (V c main_arg0) (V c main_arg2) (((cfg0.win 2).blk t).view.emb (ValueIdx.ix2 p q))
  refine (pay_apply _ _ p q).trans ?_
  unfold prod1
  refine Finset.sum_congr rfl fun k _ => ?_
  exact congrArg₂ (· * ·) (left_block V c t p k _ (out_block_0 t p q) rfl) (right_block V c t k q _ rfl (out_block_1 t p q))

/-- An entry of the array lies in point `t`'s block iff each coordinate is in the block's range on its axis. -/
theorem mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- The twenty row blocks cover the array: row `r` lies in block `r / 5000`. -/
theorem covered (i : S100000x64.Idx) :
    ∃ t : Fin cfg0.N, (cfg0.win 2).flush t = true ∧ i ∈ ((cfg0.win 2).blk t).view.set := by
  have hi0 : (i 0).val < 100000 := ValueIdx.idx2_lt0 i
  have hi1 : (i 1).val < 64 := ValueIdx.idx2_lt1 i
  obtain ⟨t, ht⟩ := block_onto ⟨(i 0).val / 5000, by omega⟩
  have ht' : t.val = (i 0).val / 5000 := ht
  obtain ⟨-, -, -, -, e0, e1, -⟩ := block_indices t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

end Prod1

/-- After the first call's twenty row blocks have been written back, its result array is the whole product. -/
theorem arr0 (c : Dev nD) :
    (dat0 (F := Ideal) V c).arrAt 2 cfg0.N = prod1 (V c main_arg0) (V c main_arg2) :=
  (dat0 (F := Ideal) V c).arrAt_eq_of_cover 2 (prod1 (V c main_arg0) (V c main_arg2)) (fun t _ => Prod1.flushed_eq V c t) Prod1.covered

end Cert.KernelIdeal.Closed

end
-- ==== Proof.Act1.lean ====
import proofs.«147523_j22565758173932_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Closed

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The one row of the bias, at column `i 1`. -/
abbrev brow64 (i : S100000x64.Idx) : S1x64.Idx := fun a => match a with
  | ⟨0, _⟩ => ⟨0, Nat.one_pos⟩
  | ⟨1, _⟩ => ⟨(i 1).val, (i 1).isLt⟩
/-- Bias added along the rows, then the logistic function, entry by entry. -/
def biasLogistic (a : (⟨S100000x64, .f32⟩ : BufTy).Contents (Elt Ideal)) (b : (⟨S1x64, .f32⟩ : BufTy).Contents (Elt Ideal)) :
    (⟨S100000x64, .f32⟩ : BufTy).Contents (Elt Ideal) :=
  fun i => FloatOps.logistic (F := Ideal) (φ := .f32) (FloatOps.addf (F := Ideal) (φ := .f32) (a i) (b (brow64 i)))

/-- The offsets of a whole-buffer access are all zero. -/
theorem zeroOffsets1 : (![0, 0] : Fin 2 → Nat) = fun _ => 0 := funext fun a => by fin_cases a <;> rfl

/-- The body's result at row `p`, column `q` of a block: the logistic function of the block's entry there plus the
    bias row's entry at column `q` (the two shape casts are to the same shape; the broadcast repeats the one row). -/
theorem act1_entry (x0 : Vec Ideal S5000x64 .f32) (x1 : Vec Ideal S1x64 .f32) (p : Fin 5000) (q : Fin 64) :
    k1_pay1 x0 x1 (ValueIdx.ix2 p q)
      = FloatOps.logistic (F := Ideal) (φ := .f32) (FloatOps.addf (F := Ideal) (φ := .f32) (x0 (ValueIdx.ix2 p q)) (x1 (ValueIdx.ix2 (0 : Fin 1) q))) := by
  unfold k1_pay1
  show FloatOps.logistic (F := Ideal) (φ := .f32) (FloatOps.addf (F := Ideal) (φ := .f32) (shapeCast S5000x64 x0 shapeCasts_S5000x64_S5000x64 (ValueIdx.ix2 p q))
      (broadcastTo S5000x64 (shapeCast S1x64 x1 shapeCasts_S1x64_S1x64) broadcasts_S1x64_S5000x64 (ValueIdx.ix2 p q))) = _
  rw [shapeCast_self, shapeCast_self,
    broadcastTo_apply x1 broadcasts_S1x64_S5000x64 (ValueIdx.ix2 p q) (ValueIdx.ix2 (0 : Fin 1) q)
      (fun a => by match a with | ⟨0, _⟩ => rfl | ⟨1, _⟩ => rfl)]

/-- The index maps over the twenty grid points: the input's row block moves with the output's, which is block `t` of
    rows at point `t`, all 64 columns; the bias is its one block throughout. -/
theorem act1_blockIndex : ∀ t : Fin cfg1.N, win1_0.index t (0 : Fin 2) = win1_2.index t (0 : Fin 2)
    ∧ win1_0.index t (1 : Fin 2) = win1_2.index t (1 : Fin 2)
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the activated sum of the arrays as the call finds them. -/
theorem act1_written (c : Dev nD) (t : Fin cfg1.N) :
    (dat1 (F := Ideal) V c).flushed 2 t = ((cfg1.win 2).blk t).view.read (Elt Ideal) (biasLogistic (V c main_v43) (V c main_v44)) := by
  show (cfg1.win 2).cut (grid1.coords t) ((dat1 V c).after 2 t) = _
  rw [after1_2]
  unfold out1_2
  rw [View.canon_unit_zero zeroOffsets1]
  simp only [View.ld_unit_zero (S := S5000x64) zeroOffsets1, View.ld_unit_zero (S := S1x64) zeroOffsets1]
  obtain ⟨e0, e1, e2, e3, e4, e5⟩ := act1_blockIndex t
  funext j
  obtain ⟨p, q, rfl⟩ : ∃ (p : Fin 5000) (q : Fin 64), j = ValueIdx.ix2 p q := ⟨j 0, j 1, ValueIdx.eq_ix2 j⟩
  show k1_pay1 (iblk1 V c 0 t) (iblk1 V c 1 t) (ValueIdx.ix2 p q)
    = biasLogistic (V c main_v43) (V c main_v44) (((cfg1.win 2).blk t).view.emb (ValueIdx.ix2 p q))
  rw [act1_entry]
  show FloatOps.logistic (F := Ideal) (φ := .f32) (FloatOps.addf (F := Ideal) (φ := .f32)
      (V c main_v43 (((cfg1.win 0).blk t).view.emb (ValueIdx.ix2 p q)))
      (V c main_v44 (((cfg1.win 1).blk t).view.emb (ValueIdx.ix2 (0 : Fin 1) q))))
    = FloatOps.logistic (F := Ideal) (φ := .f32) (FloatOps.addf (F := Ideal) (φ := .f32)
      (V c main_v43 (((cfg1.win 2).blk t).view.emb (ValueIdx.ix2 p q)))
      (V c main_v44 (brow64 (((cfg1.win 2).blk t).view.emb (ValueIdx.ix2 p q)))))
  -- the input block's entry sits in its array where the output block's does
  have h0 : ((cfg1.win 0).blk t).view.emb (ValueIdx.ix2 p q) = ((cfg1.win 2).blk t).view.emb (ValueIdx.ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 64 + 1 * q.val = win1_2.index t (1 : Fin 2) * 64 + 1 * q.val; omega
  -- the bias block is the whole one-row array: row 0, the output entry's column
  have h1 : ((cfg1.win 1).blk t).view.emb (ValueIdx.ix2 (0 : Fin 1) q) = brow64 (((cfg1.win 2).blk t).view.emb (ValueIdx.ix2 p q)) := by
    funext a; apply Fin.ext
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  rw [h0, h1]

/-- An index of the array is in point `t`'s block iff each coordinate is in the block's range on its axis. -/
theorem act1_mem_block (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v45).slice (win1_2.rect t)).set ↔ _
  rw [View.set_slice_whole, Rect.mem_set_unit]
  exact Iff.rfl

/-- Twenty blocks of 5000 rows fill the 100000 rows: row `r` is in the block of point `r / 5000`. -/
theorem act1_cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  let t : Fin cfg1.N := ⟨(i 0).val / 5000, by show (i 0).val / 5000 < 20; omega⟩
  obtain ⟨e0, e1, e2, e3, e4, e5⟩ := act1_blockIndex t
  have ht : t.val = (i 0).val / 5000 := rfl
  refine ⟨t, flush1_2 t, ?_⟩
  rw [act1_mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- After the second call's twenty row blocks have been written back, its result array is the activated sum. -/
theorem arr1 (c : Dev nD) :
    (dat1 (F := Ideal) V c).arrAt 2 cfg1.N = biasLogistic (V c main_v43) (V c main_v44) :=
  (dat1 (F := Ideal) V c).arrAt_eq_of_cover 2 (biasLogistic (V c main_v43) (V c main_v44))
    (fun t _ => act1_written V c t) act1_cover

end Cert.KernelIdeal.Closed

end
-- ==== Proof.Prod2.lean ====
import proofs.«147523_j22565758173932_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Closed

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Row `i 0` of the left operand at column `k`. -/
abbrev lrow2 (i : S100000x8.Idx) (k : Fin 64) : S100000x64.Idx := fun a => match a with
  | ⟨0, _⟩ => ⟨(i 0).val, (i 0).isLt⟩
  | ⟨1, _⟩ => ⟨k.val, k.isLt⟩
/-- Row `k` of the right operand at column `i 1`. -/
abbrev rcol2 (i : S100000x8.Idx) (k : Fin 64) : S64x8.Idx := fun a => match a with
  | ⟨0, _⟩ => ⟨k.val, k.isLt⟩
  | ⟨1, _⟩ => ⟨(i 1).val, (i 1).isLt⟩
/-- The product of a 100000 × 64 matrix with a 64 × 8 one, entry by entry, as a sum over the inner index. -/
def prod2 (x : (⟨S100000x64, .f32⟩ : BufTy).Contents (Elt Ideal)) (w : (⟨S64x8, .f32⟩ : BufTy).Contents (Elt Ideal)) :
    (⟨S100000x8, .f32⟩ : BufTy).Contents (Elt Ideal) :=
  fun i => ∑ k : Fin 64, x (lrow2 i k) * w (rcol2 i k)

namespace Prod2

/-! ## The block product at an entry -/

/-- The left operand's row coordinate is the entry's row. -/
theorem lhs_0 (i : S5000x8.Idx) (q : dot_S5000x64_S64x8_S5000x8_1_0_0_1_n_n.contr.Idx) :
    (dot_S5000x64_S64x8_S5000x8_1_0_0_1_n_n.lhsIdx i q 0).val = (i 0).val := by
  unfold DotDims.lhsIdx
  rw [dif_neg (show ¬(0 : Fin S5000x64.rank) ∈ dot_S5000x64_S64x8_S5000x8_1_0_0_1_n_n.lhsBatch by decide), dif_pos (show (0 : Fin S5000x64.rank) ∈ dot_S5000x64_S64x8_S5000x8_1_0_0_1_n_n.lhsNonContracting by decide)]
  rfl
/-- The left operand's column coordinate is the inner index. -/
theorem lhs_1 (i : S5000x8.Idx) (q : dot_S5000x64_S64x8_S5000x8_1_0_0_1_n_n.contr.Idx) :
    (dot_S5000x64_S64x8_S5000x8_1_0_0_1_n_n.lhsIdx i q 1).val = (q ⟨0, by decide⟩).val :=
  dot_S5000x64_S64x8_S5000x8_1_0_0_1_n_n.lhsIdx_val_of_single rfl i q
/-- The right operand's row coordinate is the inner index. -/
theorem rhs_0 (i : S5000x8.Idx) (q : dot_S5000x64_S64x8_S5000x8_1_0_0_1_n_n.contr.Idx) :
    (dot_S5000x64_S64x8_S5000x8_1_0_0_1_n_n.rhsIdx i q 0).val = (q ⟨0, by decide⟩).val :=
  dot_S5000x64_S64x8_S5000x8_1_0_0_1_n_n.rhsIdx_val_of_single rfl i q
/-- The right operand's column coordinate is the entry's column. -/
theorem rhs_1 (i : S5000x8.Idx) (q : dot_S5000x64_S64x8_S5000x8_1_0_0_1_n_n.contr.Idx) :
    (dot_S5000x64_S64x8_S5000x8_1_0_0_1_n_n.rhsIdx i q 1).val = (i 1).val := by
  unfold DotDims.rhsIdx
  rw [dif_neg (show ¬(1 : Fin S64x8.rank) ∈ dot_S5000x64_S64x8_S5000x8_1_0_0_1_n_n.rhsBatch by decide), dif_pos (show (1 : Fin S64x8.rank) ∈ dot_S5000x64_S64x8_S5000x8_1_0_0_1_n_n.rhsNonContracting by decide)]
  rfl

/-- What the body stores at entry `(p, q)` of its block: row `p` of the loaded left block against column `q` of the
    loaded right block, summed over the 64 inner indices (rounding to the narrower format is the identity on the
    extended reals, and the accumulator starts at zero). -/
theorem pay_apply (x0 : Vec Ideal S5000x64 .f32) (x1 : Vec Ideal S64x8 .f32) (p : Fin 5000) (q : Fin 8) :
    k2_pay1 x0 x1 (ValueIdx.ix2 p q) = ∑ k : Fin 64, x0 (ValueIdx.ix2 p k) * x1 (ValueIdx.ix2 k q) := by
  unfold k2_pay1
  rw [shapeCast_self]
  show FloatOps.matmul dot_S5000x64_S64x8_S5000x8_1_0_0_1_n_n none (truncf .bf16 x0 bitsLt_bf16_f32) (truncf .bf16 x1 bitsLt_bf16_f32)
    (constant (F := Ideal) S5000x8 .f32 0x00000000#32) (ValueIdx.ix2 p q) = _
  rw [Ideal.matmul_constant_zero_apply, ← Equiv.sum_comp (ValueIdx.contrEquiv1 dot_S5000x64_S64x8_S5000x8_1_0_0_1_n_n 64 rfl rfl).symm]
  refine Finset.sum_congr rfl fun k _ => ?_
  have hk := ValueIdx.contrEquiv1_symm_val dot_S5000x64_S64x8_S5000x8_1_0_0_1_n_n 64 rfl rfl k
  have el : dot_S5000x64_S64x8_S5000x8_1_0_0_1_n_n.lhsIdx (ValueIdx.ix2 p q) ((ValueIdx.contrEquiv1 dot_S5000x64_S64x8_S5000x8_1_0_0_1_n_n 64 rfl rfl).symm k) = ValueIdx.ix2 p k := funext fun a => Fin.ext (by
    match a with
    | ⟨0, _⟩ => exact lhs_0 _ _
    | ⟨1, _⟩ => exact (lhs_1 _ _).trans hk)
  have er : dot_S5000x64_S64x8_S5000x8_1_0_0_1_n_n.rhsIdx (ValueIdx.ix2 p q) ((ValueIdx.contrEquiv1 dot_S5000x64_S64x8_S5000x8_1_0_0_1_n_n 64 rfl rfl).symm k) = ValueIdx.ix2 k q := funext fun a => Fin.ext (by
    match a with
    | ⟨0, _⟩ => exact (rhs_0 _ _).trans hk
    | ⟨1, _⟩ => exact rhs_1 _ _)
  rw [el, er]
  rfl

/-! ## From the row blocks to the array -/

theorem zero_offsets : (![0, 0] : Fin 2 → Nat) = fun _ => 0 := funext fun a => by fin_cases a <;> rfl

/-- At each of the twenty grid points `t` the left operand's and the result's row blocks sit at block row `t`, block
    column 0, and the right operand is one block at (0, 0). -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 20 :=
  (by decide +kernel : ∀ t : Fin grid2.N, _)

/-- Every one of the twenty block rows is some grid point's. -/
theorem block_onto : ∀ b : Fin 20, ∃ t : Fin cfg2.N, t.val = b.val :=
  (by decide +kernel : ∀ b : Fin 20, ∃ t : Fin grid2.N, t.val = b.val)

/-- The left operand's block at point `t`, entry `(p, k)`, is the array's entry at row `5000 t + p`, column `k`. -/
theorem left_block (c : Dev nD) (t : Fin cfg2.N) (p : Fin 5000) (k : Fin 64) (i : S100000x64.Idx)
    (h0 : (i 0).val = t.val * 5000 + p.val) (h1 : (i 1).val = k.val) :
    iblk2 V c 0 t (ValueIdx.ix2 p k) = V c main_v45 i := by
  obtain ⟨e0, e1, -⟩ := block_indices t
  show V c main_v45 (((cfg2.win 0).blk t).view.emb (ValueIdx.ix2 p k)) = V c main_v45 i
  congr 1
  funext a; apply Fin.ext
  match a with
  | ⟨0, _⟩ => show win2_0.index t (0 : Fin 2) * 5000 + 1 * p.val = (i 0).val; omega
  | ⟨1, _⟩ => show win2_0.index t (1 : Fin 2) * 64 + 1 * k.val = (i 1).val; omega

/-- The right operand's one block is the whole array. -/
theorem right_block (c : Dev nD) (t : Fin cfg2.N) (k : Fin 64) (q : Fin 8) (i : S64x8.Idx)
    (h0 : (i 0).val = k.val) (h1 : (i 1).val = q.val) :
    iblk2 V c 1 t (ValueIdx.ix2 k q) = V c main_arg4 i := by
  obtain ⟨-, -, e0, e1, -⟩ := block_indices t
  show V c main_arg4 (((cfg2.win 1).blk t).view.emb (ValueIdx.ix2 k q)) = V c main_arg4 i
  congr 1
  funext a; apply Fin.ext
  match a with
  | ⟨0, _⟩ => show win2_1.index t (0 : Fin 2) * 64 + 1 * k.val = (i 0).val; omega
  | ⟨1, _⟩ => show win2_1.index t (1 : Fin 2) * 8 + 1 * q.val = (i 1).val; omega

/-- The result's block at point `t` sits at rows `5000 t …`, all 8 columns. -/
theorem out_block_0 (t : Fin cfg2.N) (p : Fin 5000) (q : Fin 8) :
    ((((cfg2.win 2).blk t).view.emb (ValueIdx.ix2 p q) : S100000x8.Idx) 0).val = t.val * 5000 + p.val := by
  obtain ⟨-, -, -, -, e0, e1, -⟩ := block_indices t
  show win2_2.index t (0 : Fin 2) * 5000 + 1 * p.val = _; omega
theorem out_block_1 (t : Fin cfg2.N) (p : Fin 5000) (q : Fin 8) :
    ((((cfg2.win 2).blk t).view.emb (ValueIdx.ix2 p q) : S100000x8.Idx) 1).val = q.val := by
  obtain ⟨-, -, -, -, e0, e1, -⟩ := block_indices t
  show win2_2.index t (1 : Fin 2) * 8 + 1 * q.val = _; omega

/-- What point `t` writes back is block `t` of the whole product. -/
theorem flushed_eq (c : Dev nD) (t : Fin cfg2.N) :
    (dat2 (F := Ideal) V c).flushed 2 t = ((cfg2.win 2).blk t).view.read (Elt Ideal) (prod2 (V c main_v45) (V c main_arg4)) := by
  show (cfg2.win 2).cut (grid2.coords t) ((dat2 V c).after 2 t) = _
  rw [after2_2]
  unfold out2_2
  rw [View.canon_unit_zero zero_offsets]
  simp only [View.ld_unit_zero (S := S5000x64) zero_offsets, View.ld_unit_zero (S := S64x8) zero_offsets]
  funext j
  obtain ⟨p, q, rfl⟩ : ∃ (p : Fin 5000) (q : Fin 8), j = ValueIdx.ix2 p q := ⟨j 0, j 1, ValueIdx.eq_ix2 j⟩
  show k2_pay1 (iblk2 V c 0 t) (iblk2 V c 1 t) (ValueIdx.ix2 p q)
    = prod2 (V c main_v45) (V c main_arg4) (((cfg2.win 2).blk t).view.emb (ValueIdx.ix2 p q))
  refine (pay_apply _ _ p q).trans ?_
  unfold prod2
  refine Finset.sum_congr rfl fun k _ => ?_
  exact congrArg₂ (· * ·) (left_block V c t p k _ (out_block_0 t p q) rfl) (right_block V c t k q _ rfl (out_block_1 t p q))

/-- An entry of the array lies in point `t`'s block iff each coordinate is in the block's range on its axis. -/
theorem mem_block (t : Fin cfg2.N) (i : S100000x8.Idx) :
    i ∈ ((cfg2.win 2).blk t).view.set ↔ ∀ a : Fin 2, win2_2.index t a * S5000x8.size a ≤ (i a).val ∧ (i a).val < win2_2.index t a * S5000x8.size a + S5000x8.size a := by
  show i ∈ ((View.whole main_v46).slice (win2_2.rect t)).set ↔ _
  rw [View.set_slice_whole, Rect.mem_set_unit]
  exact Iff.rfl

/-- The twenty row blocks cover the array: row `r` lies in block `r / 5000`. -/
theorem covered (i : S100000x8.Idx) :
    ∃ t : Fin cfg2.N, (cfg2.win 2).flush t = true ∧ i ∈ ((cfg2.win 2).blk t).view.set := by
  have hi0 : (i 0).val < 100000 := ValueIdx.idx2_lt0 i
  have hi1 : (i 1).val < 8 := ValueIdx.idx2_lt1 i
  obtain ⟨t, ht⟩ := block_onto ⟨(i 0).val / 5000, by omega⟩
  have ht' : t.val = (i 0).val / 5000 := ht
  obtain ⟨-, -, -, -, e0, e1, -⟩ := block_indices t
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 8 ≤ (i 1).val ∧ (i 1).val < win2_2.index t (1 : Fin 2) * 8 + 8; omega

end Prod2

/-- After the third call's twenty row blocks have been written back, its result array is the whole product. -/
theorem arr2 (c : Dev nD) :
    (dat2 (F := Ideal) V c).arrAt 2 cfg2.N = prod2 (V c main_v45) (V c main_arg4) :=
  (dat2 (F := Ideal) V c).arrAt_eq_of_cover 2 (prod2 (V c main_v45) (V c main_arg4)) (fun t _ => Prod2.flushed_eq V c t) Prod2.covered

end Cert.KernelIdeal.Closed

end
-- ==== Proof.Bias2.lean ====
import proofs.«147523_j22565758173932_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Closed

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The one row of the bias, at column `i 1`. -/
abbrev brow8 (i : S100000x8.Idx) : S1x8.Idx := fun a => match a with
  | ⟨0, _⟩ => ⟨0, Nat.one_pos⟩
  | ⟨1, _⟩ => ⟨(i 1).val, (i 1).isLt⟩
/-- Bias added along the rows, entry by entry. -/
def biasAdd (a : (⟨S100000x8, .f32⟩ : BufTy).Contents (Elt Ideal)) (b : (⟨S1x8, .f32⟩ : BufTy).Contents (Elt Ideal)) :
    (⟨S100000x8, .f32⟩ : BufTy).Contents (Elt Ideal) :=
  fun i => FloatOps.addf (F := Ideal) (φ := .f32) (a i) (b (brow8 i))

/-- The offsets of a whole-buffer access are all zero. -/
theorem zeroOffsets3 : (![0, 0] : Fin 2 → Nat) = fun _ => 0 := funext fun a => by fin_cases a <;> rfl

/-- The body's result at row `p`, column `q` of a block: the block's entry there plus the bias row's entry at
    column `q` (the two shape casts are to the same shape; the broadcast repeats the one row). -/
theorem bias3_entry (x0 : Vec Ideal S5000x8 .f32) (x1 : Vec Ideal S1x8 .f32) (p : Fin 5000) (q : Fin 8) :
    k3_pay1 x0 x1 (ValueIdx.ix2 p q)
      = FloatOps.addf (F := Ideal) (φ := .f32) (x0 (ValueIdx.ix2 p q)) (x1 (ValueIdx.ix2 (0 : Fin 1) q)) := by
  unfold k3_pay1
  show FloatOps.addf (F := Ideal) (φ := .f32) (shapeCast S5000x8 x0 shapeCasts_S5000x8_S5000x8 (ValueIdx.ix2 p q))
      (broadcastTo S5000x8 (shapeCast S1x8 x1 shapeCasts_S1x8_S1x8) broadcasts_S1x8_S5000x8 (ValueIdx.ix2 p q)) = _
  rw [shapeCast_self, shapeCast_self,
    broadcastTo_apply x1 broadcasts_S1x8_S5000x8 (ValueIdx.ix2 p q) (ValueIdx.ix2 (0 : Fin 1) q)
      (fun a => by match a with | ⟨0, _⟩ => rfl | ⟨1, _⟩ => rfl)]

/-- The index maps over the twenty grid points: the input's row block moves with the output's, which is block `t` of
    rows at point `t`, all 8 columns; the bias is its one block throughout. -/
theorem bias3_blockIndex : ∀ t : Fin cfg3.N, win3_0.index t (0 : Fin 2) = win3_2.index t (0 : Fin 2)
    ∧ win3_0.index t (1 : Fin 2) = win3_2.index t (1 : Fin 2)
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the biased sum of the arrays as the call finds them. -/
theorem bias3_written (c : Dev nD) (t : Fin cfg3.N) :
    (dat3 (F := Ideal) V c).flushed 2 t = ((cfg3.win 2).blk t).view.read (Elt Ideal) (biasAdd (V c main_v59) (V c main_v60)) := by
  show (cfg3.win 2).cut (grid3.coords t) ((dat3 V c).after 2 t) = _
  rw [after3_2]
  unfold out3_2
  rw [View.canon_unit_zero zeroOffsets3]
  simp only [View.ld_unit_zero (S := S5000x8) zeroOffsets3, View.ld_unit_zero (S := S1x8) zeroOffsets3]
  obtain ⟨e0, e1, e2, e3, e4, e5⟩ := bias3_blockIndex t
  funext j
  obtain ⟨p, q, rfl⟩ : ∃ (p : Fin 5000) (q : Fin 8), j = ValueIdx.ix2 p q := ⟨j 0, j 1, ValueIdx.eq_ix2 j⟩
  show k3_pay1 (iblk3 V c 0 t) (iblk3 V c 1 t) (ValueIdx.ix2 p q)
    = biasAdd (V c main_v59) (V c main_v60) (((cfg3.win 2).blk t).view.emb (ValueIdx.ix2 p q))
  rw [bias3_entry]
  show FloatOps.addf (F := Ideal) (φ := .f32)
      (V c main_v59 (((cfg3.win 0).blk t).view.emb (ValueIdx.ix2 p q)))
      (V c main_v60 (((cfg3.win 1).blk t).view.emb (ValueIdx.ix2 (0 : Fin 1) q)))
    = FloatOps.addf (F := Ideal) (φ := .f32)
      (V c main_v59 (((cfg3.win 2).blk t).view.emb (ValueIdx.ix2 p q)))
      (V c main_v60 (brow8 (((cfg3.win 2).blk t).view.emb (ValueIdx.ix2 p q))))
  -- the input block's entry sits in its array where the output block's does
  have h0 : ((cfg3.win 0).blk t).view.emb (ValueIdx.ix2 p q) = ((cfg3.win 2).blk t).view.emb (ValueIdx.ix2 p q) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 8 + 1 * q.val = win3_2.index t (1 : Fin 2) * 8 + 1 * q.val; omega
  -- the bias block is the whole one-row array: row 0, the output entry's column
  have h1 : ((cfg3.win 1).blk t).view.emb (ValueIdx.ix2 (0 : Fin 1) q) = brow8 (((cfg3.win 2).blk t).view.emb (ValueIdx.ix2 p q)) := by
    funext a; apply Fin.ext
    match a with
    | ⟨0, _⟩ => show win3_1.index t (0 : Fin 2) * 1 + 1 * 0 = 0; omega
    | ⟨1, _⟩ => show win3_1.index t (1 : Fin 2) * 8 + 1 * q.val = win3_2.index t (1 : Fin 2) * 8 + 1 * q.val; omega
  rw [h0, h1]

/-- An index of the array is in point `t`'s block iff each coordinate is in the block's range on its axis. -/
theorem bias3_mem_block (t : Fin cfg3.N) (i : S100000x8.Idx) :
    i ∈ ((cfg3.win 2).blk t).view.set ↔ ∀ a : Fin 2, win3_2.index t a * S5000x8.size a ≤ (i a).val ∧ (i a).val < win3_2.index t a * S5000x8.size a + S5000x8.size a := by
  show i ∈ ((View.whole main_v61).slice (win3_2.rect t)).set ↔ _
  rw [View.set_slice_whole, Rect.mem_set_unit]
  exact Iff.rfl

/-- Twenty blocks of 5000 rows fill the 100000 rows: row `r` is in the block of point `r / 5000`. -/
theorem bias3_cover (i : S100000x8.Idx) :
    ∃ t : Fin cfg3.N, (cfg3.win 2).flush t = true ∧ i ∈ ((cfg3.win 2).blk t).view.set := by
  have hi0 : (i 0).val < 100000 := (i 0).isLt
  have hi1 : (i 1).val < 8 := (i 1).isLt
  let t : Fin cfg3.N := ⟨(i 0).val / 5000, by show (i 0).val / 5000 < 20; omega⟩
  obtain ⟨e0, e1, e2, e3, e4, e5⟩ := bias3_blockIndex t
  have ht : t.val = (i 0).val / 5000 := rfl
  refine ⟨t, flush3_2 t, ?_⟩
  rw [bias3_mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 8 ≤ (i 1).val ∧ (i 1).val < win3_2.index t (1 : Fin 2) * 8 + 8; omega

/-- After the fourth call's twenty row blocks have been written back, its result array is the biased sum. -/
theorem arr3 (c : Dev nD) :
    (dat3 (F := Ideal) V c).arrAt 2 cfg3.N = biasAdd (V c main_v59) (V c main_v60) :=
  (dat3 (F := Ideal) V c).arrAt_eq_of_cover 2 (biasAdd (V c main_v59) (V c main_v60))
    (fun t _ => bias3_written V c t) bias3_cover

end Cert.KernelIdeal.Closed

end
-- ==== Proof.KValue.lean ====
import proofs.«147523_j22565758173932_1_alg».proof.Proof.Gen.KernelIdeal.Frame
import proofs.«147523_j22565758173932_1_alg».proof.Proof.Stretch
import proofs.«147523_j22565758173932_1_alg».proof.Proof.Prod1
import proofs.«147523_j22565758173932_1_alg».proof.Proof.Act1
import proofs.«147523_j22565758173932_1_alg».proof.Proof.Prod2
import proofs.«147523_j22565758173932_1_alg».proof.Proof.Bias2

set_option maxRecDepth 16384

/-! The kernel program's result as ONE function of its six arguments.

    The buffers are followed from the launch through the nine segments of the program: three stretches of host operations
    (endpoints, degrees, edge weights), the first product, the first aggregation, bias and logistic function, the second
    product, the second aggregation, the second bias. At each boundary the few buffers a later segment reads are named by
    what they hold as a function of the arguments; every other buffer is left alone. -/

noncomputable section

namespace Cert.KernelIdeal.KValue

open Cert.KernelIdeal Cert.KernelIdeal.Gen Cert.KernelIdeal.Chain Cert.KernelIdeal.Closed Cert.KernelIdeal.Stretch
open Idealize.ShloMosaic Idealize.ShloMosaic.TcCoe Idealize.ShloMosaic.StableHlo Idealize.SL.Sem

/-- Two layers of graph convolution: product with the weights, aggregation over the weighted edges, bias; the logistic
    function between the layers. -/
def value (x : (⟨S100000x128, .f32⟩ : BufTy).Contents (Elt Ideal)) (e : (⟨S2x3200000, .i32⟩ : BufTy).Contents (Elt Ideal))
    (w1 : (⟨S128x64, .f32⟩ : BufTy).Contents (Elt Ideal)) (b1 : (⟨S64, .f32⟩ : BufTy).Contents (Elt Ideal))
    (w2 : (⟨S64x8, .f32⟩ : BufTy).Contents (Elt Ideal)) (b2 : (⟨S8, .f32⟩ : BufTy).Contents (Elt Ideal)) :
    (⟨S100000x8, .f32⟩ : BufTy).Contents (Elt Ideal) :=
  biasAdd
    (aggOf8
      (prod2
        (biasLogistic (aggOf64 (prod1 x w1) (srcOf e) (dstOf e) (normOf e)) (shapeCast S1x64 b1 Facts₀.shapeCasts_S64_S1x64))
        w2)
      (srcOf e) (dstOf e) (normOf e))
    (shapeCast S1x8 b2 Facts₀.shapeCasts_S8_S1x8)

variable (m : (ℓ : Loc nD τ sig) → Buf (Elt Ideal) ℓ) (ρ : Dev nD → PrngReg) (c : Dev nD)

/-! ## At the first call's entry -/

theorem w3_src : W3 m ρ c (Proc.devRef .tc main_v3) = srcOf (m ((c : Thread nD τ).loc main_arg1)) := pre_src (W0 m ρ c)
theorem w3_dst : W3 m ρ c (Proc.devRef .tc main_v6) = dstOf (m ((c : Thread nD τ).loc main_arg1)) := pre_dst (W0 m ρ c)
theorem w3_norm : W3 m ρ c (Proc.devRef .tc main_v29) = normOf (m ((c : Thread nD τ).loc main_arg1)) := pre_norm (W0 m ρ c)
theorem w3_arg0 : W3 m ρ c (Proc.devRef .tc main_arg0) = (m ((c : Thread nD τ).loc main_arg0)) := pre_arg0 (W0 m ρ c)
theorem w3_arg2 : W3 m ρ c (Proc.devRef .tc main_arg2) = (m ((c : Thread nD τ).loc main_arg2)) := pre_arg2 (W0 m ρ c)
theorem w3_arg3 : W3 m ρ c (Proc.devRef .tc main_arg3) = (m ((c : Thread nD τ).loc main_arg3)) := pre_arg3 (W0 m ρ c)
theorem w3_arg4 : W3 m ρ c (Proc.devRef .tc main_arg4) = (m ((c : Thread nD τ).loc main_arg4)) := pre_arg4 (W0 m ρ c)
theorem w3_arg5 : W3 m ρ c (Proc.devRef .tc main_arg5) = (m ((c : Thread nD τ).loc main_arg5)) := pre_arg5 (W0 m ρ c)

/-! ## At the first call's exit -/

theorem w4_h : W4 m ρ c (Proc.devRef .tc main_v30) = prod1 (m ((c : Thread nD τ).loc main_arg0)) (m ((c : Thread nD τ).loc main_arg2)) := by
  have h : W4 m ρ c (Proc.devRef .tc main_v30) = prod1 (V3 m ρ c main_arg0) (V3 m ρ c main_arg2) :=
    (W4_arr m ρ c 2).trans (arr0 (V3 m ρ) c)
  have e0 : V3 m ρ c main_arg0 = (m ((c : Thread nD τ).loc main_arg0)) := w3_arg0 m ρ c
  have e2 : V3 m ρ c main_arg2 = (m ((c : Thread nD τ).loc main_arg2)) := w3_arg2 m ρ c
  rw [e0, e2] at h
  exact h
theorem w4_src : W4 m ρ c (Proc.devRef .tc main_v3) = srcOf (m ((c : Thread nD τ).loc main_arg1)) := (W4_of_ne m ρ c main_v3 (by decide)).trans (w3_src m ρ c)
theorem w4_dst : W4 m ρ c (Proc.devRef .tc main_v6) = dstOf (m ((c : Thread nD τ).loc main_arg1)) := (W4_of_ne m ρ c main_v6 (by decide)).trans (w3_dst m ρ c)
theorem w4_norm : W4 m ρ c (Proc.devRef .tc main_v29) = normOf (m ((c : Thread nD τ).loc main_arg1)) := (W4_of_ne m ρ c main_v29 (by decide)).trans (w3_norm m ρ c)
theorem w4_arg3 : W4 m ρ c (Proc.devRef .tc main_arg3) = (m ((c : Thread nD τ).loc main_arg3)) := (W4_of_ne m ρ c main_arg3 (by decide)).trans (w3_arg3 m ρ c)
theorem w4_arg4 : W4 m ρ c (Proc.devRef .tc main_arg4) = (m ((c : Thread nD τ).loc main_arg4)) := (W4_of_ne m ρ c main_arg4 (by decide)).trans (w3_arg4 m ρ c)
theorem w4_arg5 : W4 m ρ c (Proc.devRef .tc main_arg5) = (m ((c : Thread nD τ).loc main_arg5)) := (W4_of_ne m ρ c main_arg5 (by decide)).trans (w3_arg5 m ρ c)

/-! ## At the second call's entry -/

theorem w5_agg : W5 m ρ c (Proc.devRef .tc main_v43) = aggOf64 (prod1 (m ((c : Thread nD τ).loc main_arg0)) (m ((c : Thread nD τ).loc main_arg2))) (srcOf (m ((c : Thread nD τ).loc main_arg1))) (dstOf (m ((c : Thread nD τ).loc main_arg1))) (normOf (m ((c : Thread nD τ).loc main_arg1))) := by
  have h := mid_agg (W4 m ρ c)
  rw [w4_h, w4_src, w4_dst, w4_norm] at h
  exact h
theorem w5_bias : W5 m ρ c (Proc.devRef .tc main_v44) = shapeCast S1x64 (m ((c : Thread nD τ).loc main_arg3)) Facts₀.shapeCasts_S64_S1x64 := by
  have h := mid_bias (W4 m ρ c)
  rw [w4_arg3] at h
  exact h
theorem w5_src : W5 m ρ c (Proc.devRef .tc main_v3) = srcOf (m ((c : Thread nD τ).loc main_arg1)) := (mid_v3 (W4 m ρ c)).trans (w4_src m ρ c)
theorem w5_dst : W5 m ρ c (Proc.devRef .tc main_v6) = dstOf (m ((c : Thread nD τ).loc main_arg1)) := (mid_v6 (W4 m ρ c)).trans (w4_dst m ρ c)
theorem w5_norm : W5 m ρ c (Proc.devRef .tc main_v29) = normOf (m ((c : Thread nD τ).loc main_arg1)) := (mid_v29 (W4 m ρ c)).trans (w4_norm m ρ c)
theorem w5_arg4 : W5 m ρ c (Proc.devRef .tc main_arg4) = (m ((c : Thread nD τ).loc main_arg4)) := (mid_arg4 (W4 m ρ c)).trans (w4_arg4 m ρ c)
theorem w5_arg5 : W5 m ρ c (Proc.devRef .tc main_arg5) = (m ((c : Thread nD τ).loc main_arg5)) := (mid_arg5 (W4 m ρ c)).trans (w4_arg5 m ρ c)

/-! ## At the second call's exit, which is the third call's entry -/

theorem w6_h : W6 m ρ c (Proc.devRef .tc main_v45) = biasLogistic (aggOf64 (prod1 (m ((c : Thread nD τ).loc main_arg0)) (m ((c : Thread nD τ).loc main_arg2))) (srcOf (m ((c : Thread nD τ).loc main_arg1))) (dstOf (m ((c : Thread nD τ).loc main_arg1))) (normOf (m ((c : Thread nD τ).loc main_arg1)))) (shapeCast S1x64 (m ((c : Thread nD τ).loc main_arg3)) Facts₀.shapeCasts_S64_S1x64) := by
  have h : W6 m ρ c (Proc.devRef .tc main_v45) = biasLogistic (V5 m ρ c main_v43) (V5 m ρ c main_v44) :=
    (W6_arr m ρ c 2).trans (arr1 (V5 m ρ) c)
  have e0 : V5 m ρ c main_v43 = (aggOf64 (prod1 (m ((c : Thread nD τ).loc main_arg0)) (m ((c : Thread nD τ).loc main_arg2))) (srcOf (m ((c : Thread nD τ).loc main_arg1))) (dstOf (m ((c : Thread nD τ).loc main_arg1))) (normOf (m ((c : Thread nD τ).loc main_arg1)))) := w5_agg m ρ c
  have e1 : V5 m ρ c main_v44 = (shapeCast S1x64 (m ((c : Thread nD τ).loc main_arg3)) Facts₀.shapeCasts_S64_S1x64) := w5_bias m ρ c
  rw [e0, e1] at h
  exact h
theorem w6_src : W6 m ρ c (Proc.devRef .tc main_v3) = srcOf (m ((c : Thread nD τ).loc main_arg1)) := (W6_of_ne m ρ c main_v3 (by decide)).trans (w5_src m ρ c)
theorem w6_dst : W6 m ρ c (Proc.devRef .tc main_v6) = dstOf (m ((c : Thread nD τ).loc main_arg1)) := (W6_of_ne m ρ c main_v6 (by decide)).trans (w5_dst m ρ c)
theorem w6_norm : W6 m ρ c (Proc.devRef .tc main_v29) = normOf (m ((c : Thread nD τ).loc main_arg1)) := (W6_of_ne m ρ c main_v29 (by decide)).trans (w5_norm m ρ c)
theorem w6_arg4 : W6 m ρ c (Proc.devRef .tc main_arg4) = (m ((c : Thread nD τ).loc main_arg4)) := (W6_of_ne m ρ c main_arg4 (by decide)).trans (w5_arg4 m ρ c)
theorem w6_arg5 : W6 m ρ c (Proc.devRef .tc main_arg5) = (m ((c : Thread nD τ).loc main_arg5)) := (W6_of_ne m ρ c main_arg5 (by decide)).trans (w5_arg5 m ρ c)

/-! ## At the third call's exit -/

theorem w7_h : W7 m ρ c (Proc.devRef .tc main_v46) = prod2 (biasLogistic (aggOf64 (prod1 (m ((c : Thread nD τ).loc main_arg0)) (m ((c : Thread nD τ).loc main_arg2))) (srcOf (m ((c : Thread nD τ).loc main_arg1))) (dstOf (m ((c : Thread nD τ).loc main_arg1))) (normOf (m ((c : Thread nD τ).loc main_arg1)))) (shapeCast S1x64 (m ((c : Thread nD τ).loc main_arg3)) Facts₀.shapeCasts_S64_S1x64)) (m ((c : Thread nD τ).loc main_arg4)) := by
  have h : W7 m ρ c (Proc.devRef .tc main_v46) = prod2 (V6 m ρ c main_v45) (V6 m ρ c main_arg4) :=
    (W7_arr m ρ c 2).trans (arr2 (V6 m ρ) c)
  have e0 : V6 m ρ c main_v45 = (biasLogistic (aggOf64 (prod1 (m ((c : Thread nD τ).loc main_arg0)) (m ((c : Thread nD τ).loc main_arg2))) (srcOf (m ((c : Thread nD τ).loc main_arg1))) (dstOf (m ((c : Thread nD τ).loc main_arg1))) (normOf (m ((c : Thread nD τ).loc main_arg1)))) (shapeCast S1x64 (m ((c : Thread nD τ).loc main_arg3)) Facts₀.shapeCasts_S64_S1x64)) := w6_h m ρ c
  have e1 : V6 m ρ c main_arg4 = (m ((c : Thread nD τ).loc main_arg4)) := w6_arg4 m ρ c
  rw [e0, e1] at h
  exact h
theorem w7_src : W7 m ρ c (Proc.devRef .tc main_v3) = srcOf (m ((c : Thread nD τ).loc main_arg1)) := (W7_of_ne m ρ c main_v3 (by decide)).trans (w6_src m ρ c)
theorem w7_dst : W7 m ρ c (Proc.devRef .tc main_v6) = dstOf (m ((c : Thread nD τ).loc main_arg1)) := (W7_of_ne m ρ c main_v6 (by decide)).trans (w6_dst m ρ c)
theorem w7_norm : W7 m ρ c (Proc.devRef .tc main_v29) = normOf (m ((c : Thread nD τ).loc main_arg1)) := (W7_of_ne m ρ c main_v29 (by decide)).trans (w6_norm m ρ c)
theorem w7_arg5 : W7 m ρ c (Proc.devRef .tc main_arg5) = (m ((c : Thread nD τ).loc main_arg5)) := (W7_of_ne m ρ c main_arg5 (by decide)).trans (w6_arg5 m ρ c)

/-! ## At the fourth call's entry -/

theorem w8_agg : W8 m ρ c (Proc.devRef .tc main_v59) = aggOf8 (prod2 (biasLogistic (aggOf64 (prod1 (m ((c : Thread nD τ).loc main_arg0)) (m ((c : Thread nD τ).loc main_arg2))) (srcOf (m ((c : Thread nD τ).loc main_arg1))) (dstOf (m ((c : Thread nD τ).loc main_arg1))) (normOf (m ((c : Thread nD τ).loc main_arg1)))) (shapeCast S1x64 (m ((c : Thread nD τ).loc main_arg3)) Facts₀.shapeCasts_S64_S1x64)) (m ((c : Thread nD τ).loc main_arg4))) (srcOf (m ((c : Thread nD τ).loc main_arg1))) (dstOf (m ((c : Thread nD τ).loc main_arg1))) (normOf (m ((c : Thread nD τ).loc main_arg1))) := by
  have h := late_agg (W7 m ρ c)
  rw [w7_h, w7_src, w7_dst, w7_norm] at h
  exact h
theorem w8_bias : W8 m ρ c (Proc.devRef .tc main_v60) = shapeCast S1x8 (m ((c : Thread nD τ).loc main_arg5)) Facts₀.shapeCasts_S8_S1x8 := by
  have h := late_bias (W7 m ρ c)
  rw [w7_arg5] at h
  exact h

/-! ## At the return -/

/-- The result buffer after the last call holds `value` of the six arguments as launched. -/
theorem result : W9 m ρ c (Proc.devRef .tc main_v61) = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h : W9 m ρ c (Proc.devRef .tc main_v61) = biasAdd (V8 m ρ c main_v59) (V8 m ρ c main_v60) :=
    (W9_arr m ρ c 2).trans (arr3 (V8 m ρ) c)
  have e0 : V8 m ρ c main_v59 = (aggOf8 (prod2 (biasLogistic (aggOf64 (prod1 (m ((c : Thread nD τ).loc main_arg0)) (m ((c : Thread nD τ).loc main_arg2))) (srcOf (m ((c : Thread nD τ).loc main_arg1))) (dstOf (m ((c : Thread nD τ).loc main_arg1))) (normOf (m ((c : Thread nD τ).loc main_arg1)))) (shapeCast S1x64 (m ((c : Thread nD τ).loc main_arg3)) Facts₀.shapeCasts_S64_S1x64)) (m ((c : Thread nD τ).loc main_arg4))) (srcOf (m ((c : Thread nD τ).loc main_arg1))) (dstOf (m ((c : Thread nD τ).loc main_arg1))) (normOf (m ((c : Thread nD τ).loc main_arg1)))) := w8_agg m ρ c
  have e1 : V8 m ρ c main_v60 = (shapeCast S1x8 (m ((c : Thread nD τ).loc main_arg5)) Facts₀.shapeCasts_S8_S1x8) := w8_bias m ρ c
  rw [e0, e1] at h
  exact h

end Cert.KernelIdeal.KValue

end
-- ==== Proof.RefChain.lean ====
import proofs.«147523_j22565758173932_1_alg».proof.Proof.RefReadP
import proofs.«147523_j22565758173932_1_alg».proof.Proof.Chain

set_option maxRecDepth 16384

/-! The reference computes the same host-side arithmetic as the kernel program: its stages for the edge endpoints, the
    edge weights (which it computes once per layer, from the same edge list) and the two aggregations ARE the shared
    functions of `Chain`, operation by operation, whatever the float values are. -/

noncomputable section

namespace Cert.Bridge

open Idealize.ShloMosaic
open Cert.KernelIdeal.Chain Cert.ReferenceIdeal Cert.ReferenceIdeal.ReadP

variable {F : FTy → Type} [FloatOps F]

theorem ref_src (x1 : (⟨S2x3200000, .i32⟩ : BufTy).Contents (Elt F)) : val_main_v3 (F := F) x1 = srcOf x1 := rfl

theorem ref_dst (x1 : (⟨S2x3200000, .i32⟩ : BufTy).Contents (Elt F)) : val_main_v6 (F := F) x1 = dstOf x1 := rfl

/-- The first layer's edge weights. -/
theorem ref_norm (x1 : (⟨S2x3200000, .i32⟩ : BufTy).Contents (Elt F)) : val_main_v30 (F := F) x1 = normOf x1 := rfl

/-- The second layer's edge weights: computed again, from the same edge list. -/
theorem ref_norm' (x1 : (⟨S2x3200000, .i32⟩ : BufTy).Contents (Elt F)) : val_main_v76 (F := F) x1 = normOf x1 := rfl

/-- The first layer's aggregation, of the reference's first product. -/
theorem ref_agg64 (x0 : (⟨S100000x128, .f32⟩ : BufTy).Contents (Elt F)) (x1 : (⟨S2x3200000, .i32⟩ : BufTy).Contents (Elt F)) (x2 : (⟨S128x64, .f32⟩ : BufTy).Contents (Elt F)) :
    val_main_v43 (F := F) x0 x1 x2 = aggOf64 (val_main_v7 (F := F) x0 x2) (srcOf x1) (dstOf x1) (normOf x1) := rfl

/-- The second layer's aggregation, of the reference's second product. -/
theorem ref_agg8 (x0 : (⟨S100000x128, .f32⟩ : BufTy).Contents (Elt F)) (x1 : (⟨S2x3200000, .i32⟩ : BufTy).Contents (Elt F)) (x2 : (⟨S128x64, .f32⟩ : BufTy).Contents (Elt F)) (x3 : (⟨S64, .f32⟩ : BufTy).Contents (Elt F)) (x4 : (⟨S64x8, .f32⟩ : BufTy).Contents (Elt F)) :
    val_main_v89 (F := F) x0 x1 x2 x3 x4 = aggOf8 (val_main_v53 (F := F) x0 x1 x2 x3 x4) (srcOf x1) (dstOf x1) (normOf x1) := rfl

end Cert.Bridge

end
-- ==== Proof.BridgeProd.lean ====
import proofs.«147523_j22565758173932_1_alg».proof.Proof.RefReadP
import proofs.«147523_j22565758173932_1_alg».proof.Proof.Prod1
import proofs.«147523_j22565758173932_1_alg».proof.Proof.Prod2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.TcCoe Idealize.SL.Sem
open Cert.KernelIdeal.Closed Cert.ReferenceIdeal Cert.ReferenceIdeal.ReadP

/-- The first layer's product, entry by entry a sum over the inner index, is the reference's matrix product. -/
theorem prod1_ref (x0 : (⟨S100000x128, .f32⟩ : BufTy).Contents (Elt Ideal)) (x2 : (⟨S128x64, .f32⟩ : BufTy).Contents (Elt Ideal)) :
    prod1 x0 x2 = val_main_v7 (F := Ideal) x0 x2 := by
  funext i
  rw [val_main_v7_apply]
  rfl

/-- The second layer's product of the reference's activated features is the reference's second matrix product. -/
theorem prod2_ref (x0 : (⟨S100000x128, .f32⟩ : BufTy).Contents (Elt Ideal)) (x1 : (⟨S2x3200000, .i32⟩ : BufTy).Contents (Elt Ideal))
    (x2 : (⟨S128x64, .f32⟩ : BufTy).Contents (Elt Ideal)) (x3 : (⟨S64, .f32⟩ : BufTy).Contents (Elt Ideal)) (x4 : (⟨S64x8, .f32⟩ : BufTy).Contents (Elt Ideal)) :
    prod2 (val_main_v52 (F := Ideal) x0 x1 x2 x3) x4 = val_main_v53 (F := Ideal) x0 x1 x2 x3 x4 := by
  funext i
  rw [val_main_v53_apply]
  rfl

end Cert.Bridge

end
-- ==== Proof.BridgeBias.lean ====
import proofs.«147523_j22565758173932_1_alg».proof.Proof.RefReadP
import proofs.«147523_j22565758173932_1_alg».proof.Proof.Act1
import proofs.«147523_j22565758173932_1_alg».proof.Proof.Bias2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.TcCoe Idealize.SL.Sem
open Cert.KernelIdeal.Closed Cert.ReferenceIdeal Cert.ReferenceIdeal.ReadP

/-- The bit pattern of the constant one denotes one. -/
theorem bias_one_f32 : FloatOps.ofBits (F := Ideal) .f32 0x3F800000#32 = 1 := IdealRules.sign_bit.ideal_onePat .f32

/-- The logistic function is one over one plus the exponential of the negated argument, by definition. -/
theorem logistic_spelled (y : Ideal .f32) :
    FloatOps.logistic (F := Ideal) (φ := .f32) y
      = FloatOps.hostDivf (FloatOps.ofBits (F := Ideal) .f32 0x3F800000#32)
          (FloatOps.addf (FloatOps.ofBits (F := Ideal) .f32 0x3F800000#32) (FloatOps.hostUnary .exp (FloatOps.hostNegf y))) := by
  rw [bias_one_f32]
  rfl

/-- The 64 biases reshaped to one row, read at `j`, are the bias at `j`'s column. -/
theorem biasRow64_apply (x3 : (⟨Cert.KernelIdeal.S64, .f32⟩ : BufTy).Contents (Elt Ideal)) (j : Cert.KernelIdeal.S1x64.Idx) :
    shapeCast Cert.KernelIdeal.S1x64 x3 Cert.KernelIdeal.Facts₀.shapeCasts_S64_S1x64 j = x3 (fun a => j a.succ) :=
  shapeCast_addUnit_apply (n := 1) ![64] x3 Cert.KernelIdeal.Facts₀.shapeCasts_S64_S1x64 j

/-- The 8 biases reshaped to one row, read at `j`, are the bias at `j`'s column. -/
theorem biasRow8_apply (x5 : (⟨Cert.KernelIdeal.S8, .f32⟩ : BufTy).Contents (Elt Ideal)) (j : Cert.KernelIdeal.S1x8.Idx) :
    shapeCast Cert.KernelIdeal.S1x8 x5 Cert.KernelIdeal.Facts₀.shapeCasts_S8_S1x8 j = x5 (fun a => j a.succ) :=
  shapeCast_addUnit_apply (n := 1) ![8] x5 Cert.KernelIdeal.Facts₀.shapeCasts_S8_S1x8 j

/-- The first layer's bias and logistic function of the reference's aggregation: the reference spells the logistic
    function as one over one plus the exponential of the negated argument, which is its definition on the extended reals. -/
theorem act_ref (x0 : (⟨S100000x128, .f32⟩ : BufTy).Contents (Elt Ideal)) (x1 : (⟨S2x3200000, .i32⟩ : BufTy).Contents (Elt Ideal))
    (x2 : (⟨S128x64, .f32⟩ : BufTy).Contents (Elt Ideal)) (x3 : (⟨S64, .f32⟩ : BufTy).Contents (Elt Ideal)) :
    biasLogistic (val_main_v43 (F := Ideal) x0 x1 x2)
        (shapeCast Cert.KernelIdeal.S1x64 x3 Cert.KernelIdeal.Facts₀.shapeCasts_S64_S1x64)
      = val_main_v52 (F := Ideal) x0 x1 x2 x3 := by
  funext i
  -- the reference's entry: the two ones, the aggregation's entry, the bias at column `i 1`
  rw [val_main_v52_apply, val_main_v51_apply, val_main_cst_10_apply, val_main_v50_apply, val_main_v49_apply,
    val_main_cst_9_apply, val_main_v48_apply, val_main_v47_apply, val_main_v46_apply, val_main_v45_apply, val_main_v44_apply]
  show FloatOps.logistic (F := Ideal) (φ := .f32) (FloatOps.addf (F := Ideal) (φ := .f32) (val_main_v43 (F := Ideal) x0 x1 x2 i)
      (shapeCast Cert.KernelIdeal.S1x64 x3 Cert.KernelIdeal.Facts₀.shapeCasts_S64_S1x64 (brow64 i))) = _
  rw [biasRow64_apply, logistic_spelled]
  -- both sides read the bias at column `i 1`
  have hk : @Eq Cert.KernelIdeal.S64.Idx (fun a => brow64 i a.succ) (idx_main_v44 (idx_main_v45 i)) :=
    funext fun a => match a with
      | ⟨0, _⟩ => rfl
  rw [hk]

/-- The second layer's bias added to the reference's second aggregation is the reference's result. -/
theorem bias_ref (x0 : (⟨S100000x128, .f32⟩ : BufTy).Contents (Elt Ideal)) (x1 : (⟨S2x3200000, .i32⟩ : BufTy).Contents (Elt Ideal))
    (x2 : (⟨S128x64, .f32⟩ : BufTy).Contents (Elt Ideal)) (x3 : (⟨S64, .f32⟩ : BufTy).Contents (Elt Ideal))
    (x4 : (⟨S64x8, .f32⟩ : BufTy).Contents (Elt Ideal)) (x5 : (⟨S8, .f32⟩ : BufTy).Contents (Elt Ideal)) :
    biasAdd (val_main_v89 (F := Ideal) x0 x1 x2 x3 x4)
        (shapeCast Cert.KernelIdeal.S1x8 x5 Cert.KernelIdeal.Facts₀.shapeCasts_S8_S1x8)
      = val_main_v92 (F := Ideal) x0 x1 x2 x3 x4 x5 := by
  funext i
  rw [val_main_v92_apply, val_main_v91_apply, val_main_v90_apply]
  show FloatOps.addf (F := Ideal) (φ := .f32) (val_main_v89 (F := Ideal) x0 x1 x2 x3 x4 i)
      (shapeCast Cert.KernelIdeal.S1x8 x5 Cert.KernelIdeal.Facts₀.shapeCasts_S8_S1x8 (brow8 i)) = _
  rw [biasRow8_apply]
  -- both sides read the bias at column `i 1`
  have hk : @Eq Cert.KernelIdeal.S8.Idx (fun a => brow8 i a.succ) (idx_main_v90 (idx_main_v91 i)) :=
    funext fun a => match a with
      | ⟨0, _⟩ => rfl
  rw [hk]

end Cert.Bridge

end
-- ==== Proof.Final.lean ====
import proofs.«147523_j22565758173932_1_alg».proof.Proof.KValue
import proofs.«147523_j22565758173932_1_alg».proof.Proof.RefChain
import proofs.«147523_j22565758173932_1_alg».proof.Proof.BridgeProd
import proofs.«147523_j22565758173932_1_alg».proof.Proof.BridgeBias

set_option maxRecDepth 16384

/-! The kernel program's value is the reference's: layer by layer the product is the reference's matrix product, the
    aggregation the shared one, and bias with activation the reference's broadcast sum with its spelled-out logistic
    function. No law of arithmetic beyond the definition of the logistic function is used, so the inputs' finiteness is
    not needed. -/

noncomputable section

namespace Cert.Bridge

open Idealize.ShloMosaic
open Cert.ReferenceIdeal Cert.ReferenceIdeal.ReadP

theorem value_ref (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal))
    (x4 : (⟨S64x8, .f32⟩ : BufTy).Contents (Elt Ideal)) (x5 : (⟨S8, .f32⟩ : BufTy).Contents (Elt Ideal)) :
    Cert.KernelIdeal.KValue.value x0 x1 x2 x3 x4 x5 = val_main_v92 (F := Ideal) x0 x1 x2 x3 x4 x5 := by
  unfold Cert.KernelIdeal.KValue.value
  rw [prod1_ref x0 x2, ← ref_agg64 (F := Ideal) x0 x1 x2, act_ref x0 x1 x2 x3, prod2_ref x0 x1 x2 x3 x4,
    ← ref_agg8 (F := Ideal) x0 x1 x2 x3 x4, bias_ref x0 x1 x2 x3 x4 x5]

end Cert.Bridge

end
-- ==== Proof.lean ====
/- Two layers of graph convolution over 100000 nodes and 3300000 edges (3200000 given, one self loop per node): each layer
   multiplies the node features by a weight matrix, sums over every node's incoming edges the source rows scaled by
   1/sqrt(deg(src)·deg(dst)), and adds a bias; the logistic function sits between the layers. The kernel program does the two
   products and the two bias steps in four pipelined calls over twenty blocks of 5000 rows each and everything else
   (endpoints, degrees, edge weights, gathers, scatter sums) on the host; the reference does everything on the host.

   On the extended reals the two agree entry by entry with no appeal to the inputs' finiteness: a product block by block
   into a zero accumulator is the row-by-column sum of the whole matrix product (a change of float format is the identity),
   the twenty row blocks tile the 100000 rows exactly, the host arithmetic is the same term on both sides, and the logistic
   function is by definition 1 / (1 + exp (-x)), which is how the reference spells it.

   The three frames: the two kernel programs' are the generated ones; the reference's is its run with the result dropped.
   The idealization rewrote no operation, so `preserves` holds trivially. -/
import proofs.«147523_j22565758173932_1_alg».proof.Defs
import proofs.«147523_j22565758173932_1_alg».proof.Proof.Gen.Kernel
import proofs.«147523_j22565758173932_1_alg».proof.Proof.Gen.Kernel.Frame
import proofs.«147523_j22565758173932_1_alg».proof.Proof.Gen.KernelIdeal
import proofs.«147523_j22565758173932_1_alg».proof.Proof.Gen.KernelIdeal.Frame
import proofs.«147523_j22565758173932_1_alg».proof.Proof.Gen.ReferenceIdeal
import proofs.«147523_j22565758173932_1_alg».proof.Proof.Gen.Pre_finite_inputs
import proofs.«147523_j22565758173932_1_alg».proof.Proof.KRun
import proofs.«147523_j22565758173932_1_alg».proof.Proof.KValue
import proofs.«147523_j22565758173932_1_alg».proof.Proof.RefRunP
import proofs.«147523_j22565758173932_1_alg».proof.Proof.RefReadP
import proofs.«147523_j22565758173932_1_alg».proof.Proof.Final
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs, and keeps its arguments: its run with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the result array at the same function of the (agreeing) arguments. -/
theorem algebraic : Cert.algebraic_KernelIdeal_ReferenceIdeal := by
  intro m ρ m' ρ' _ hagree
  refine ⟨fun c => Cert.KernelIdeal.KValue.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KValue.result m ρ c), (h c).2⟩)
      (Cert.KernelIdeal.RunW.run (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v92_eq, (hagree c).1, (hagree c).2.1, (hagree c).2.2.1, (hagree c).2.2.2.1,
      (hagree c).2.2.2.2.1, (hagree c).2.2.2.2.2]
    exact (Cert.Bridge.value_ref _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
